-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096 : Shape := ⟨1, ![4096]⟩
abbrev S256x4096 : Shape := ⟨2, ![256, 4096]⟩
abbrev S256 : Shape := ⟨1, ![256]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32768x4096 .f32) (main_arg1 : FVec F S4096 .f32) (main_arg2 : FVec F S4096 .f32) (main_arg3 : FVec F S256x4096 .f32) (main_arg4 : FVec F S256 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_v13 main_v16
-- ==== Kernel.lean ====
abbrev S32768x4096 : Shape := ⟨2, ![32768, 4096]⟩
abbrev S4096 : Shape := ⟨1, ![4096]⟩
abbrev S256x4096 : Shape := ⟨2, ![256, 4096]⟩
abbrev S256 : Shape := ⟨1, ![256]⟩
abbrev S1x4096 : Shape := ⟨2, ![1, 4096]⟩
abbrev S1024x4096 : Shape := ⟨2, ![1024, 4096]⟩
abbrev S_ : Shape := ⟨0, ![]⟩
abbrev S1x256 : Shape := ⟨2, ![1, 256]⟩
abbrev S32768x256 : Shape := ⟨2, ![32768, 256]⟩
abbrev S256x256 : Shape := ⟨2, ![256, 256]⟩

abbrev nBuf : Space → Nat
  | .hbm => 19
  | .vmem => 14
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096, .f32⟩
  | .hbm, ⟨3, _⟩ => ⟨S256x4096, .f32⟩
  | .hbm, ⟨4, _⟩ => ⟨S256, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x256, .f32⟩
  | .hbm, ⟨18, _⟩ => ⟨S32768x256, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S256x4096, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S1x4096_S1x4096_0_0 : ∀ a, (![0, 0] : Fin 2 → Nat) a + S1x4096.size a ≤ S1x4096.size a
  h_S1x4096 : 0 < S1x4096.numel
  inb_S1024x4096_S1024x4096_0_0 : ∀ a, (![0, 0] : Fin 2 → Nat) a + S1024x4096.size a ≤ S1024x4096.size a
  h_S1024x4096 : 0 < S1024x4096.numel
  shapeCasts_S1x4096_S1x4096 : S1x4096.ShapeCasts S1x4096
  reduces_S1024x4096_S4096 : S1024x4096.Reduces [0] S4096
  shapeCasts_S4096_S1x4096 : S4096.ShapeCasts S1x4096
  bcast_S_S1x4096 : S_.BroadcastsInDim S1x4096 (![] : Fin 0 → Fin S1x4096.rank)
  shapeCasts_S256_S1x256 : S256.ShapeCasts S1x256
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S32768x4096.size a
  hwx1_0 : ∀ i : grid1.Coords, EltTy.bits .f32 = 32 ∨ (Rect.block (s := S32768x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S256x4096.size a
  hwx1_5 : ∀ i : grid1.Coords, EltTy.bits .f32 = 32 ∨ (Rect.block (s := S256x4096) S256x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S32768x256.size a
  hwx1_7 : ∀ i : grid1.Coords, EltTy.bits .f32 = 32 ∨ (Rect.block (s := S32768x256) S256x256.size (cc1_transform_7 i) (hinb1_7 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x4096.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S256x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32768x4096 : Shape := ⟨2, ![32768, 4096]⟩
abbrev S4096 : Shape := ⟨1, ![4096]⟩
abbrev S256x4096 : Shape := ⟨2, ![256, 4096]⟩
abbrev S256 : Shape := ⟨1, ![256]⟩
abbrev S_ : Shape := ⟨0, ![]⟩
abbrev S1x4096 : Shape := ⟨2, ![1, 4096]⟩
abbrev S4096x256 : Shape := ⟨2, ![4096, 256]⟩
abbrev S32768x256 : Shape := ⟨2, ![32768, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096, .f32⟩
  | .hbm, ⟨3, _⟩ => ⟨S256x4096, .f32⟩
  | .hbm, ⟨4, _⟩ => ⟨S256, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S32768x4096, .f32⟩
  | .hbm, ⟨12, _⟩ => ⟨S32768x4096, .f32⟩
  | .hbm, ⟨13, _⟩ => ⟨S32768x4096, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S32768x4096, .f32⟩
  | .hbm, ⟨21, _⟩ => ⟨S32768x4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S32768x4096, .f32⟩
  | .hbm, ⟨28, _⟩ => ⟨S32768x4096, .f32⟩
  | .hbm, ⟨29, _⟩ => ⟨S1x4096, .f32⟩
  | .hbm, ⟨30, _⟩ => ⟨S32768x4096, .f32⟩
  | .hbm, ⟨31, _⟩ => ⟨S32768x4096, .f32⟩
  | .hbm, ⟨32, _⟩ => ⟨S1x4096, .f32⟩
  | .hbm, ⟨33, _⟩ => ⟨S32768x4096, .f32⟩
  | .hbm, ⟨34, _⟩ => ⟨S32768x4096, .f32⟩
  | .hbm, ⟨35, _⟩ => ⟨S_, .f32⟩
  | .hbm, ⟨36, _⟩ => ⟨S32768x4096, .f32⟩
  | .hbm, ⟨37, _⟩ => ⟨S32768x4096, .f32⟩
  | .hbm, ⟨38, _⟩ => ⟨S4096x256, .f32⟩
  | .hbm, ⟨39, _⟩ => ⟨S32768x256, .f32⟩
  | .hbm, ⟨40, _⟩ => ⟨S1x256, .f32⟩
  | .hbm, ⟨41, _⟩ => ⟨S32768x256, .f32⟩
  | .hbm, ⟨42, _⟩ => ⟨S32768x256, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  reducesTo_S32768x4096_S4096_d0 : S32768x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  bcast_S_S32768x4096 : S_.BroadcastsInDim S32768x4096 (![] : Fin 0 → Fin S32768x4096.rank)
  transposes_S256x4096_S4096x256_1_0 : S256x4096.Transposes [1, 0] S4096x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x4096_S4096x256_S32768x256_1_0_0_1_n_n_wf : DotDims.WF S32768x4096 S4096x256 S32768x256 [1] [0] [0] [1] [] []

variable [Facts₀]

def dot_S32768x4096_S4096x256_S32768x256_1_0_0_1_n_n : DotDims S32768x4096 S4096x256 S32768x256 where
  lhsContracting := [1]
  rhsContracting := [0]
  lhsNonContracting := [0]
  rhsNonContracting := [1]
  lhsBatch := []
  rhsBatch := []
  wf := dot_S32768x4096_S4096x256_S32768x256_1_0_0_1_n_n_wf

class Facts : Prop extends Facts₀ where

variable [Facts]
-- ==== Proof.Spec.lean ====
/-
  The common specification of both programs at the ideal instance, over the extended reals.

  The inputs are read as curried functions: the batch `X n d` (32768 rows, 4096 features), the scale and shift
  `γ d`, `β d`, the projection `W o d` (256 outputs) and the bias `b o`.  Per feature `d`:
    `mean X d`   = (∑ₙ X n d) / 32768,
    `varMom X d` = (∑ₙ X n d · X n d) / 32768 − mean · mean        (second moment minus squared mean),
    `varDev X d` = (∑ₙ (X n d − mean)·(X n d − mean)) / 32768        (mean squared deviation),
  and for a row `n`, output `o`, with any per-feature mean `μ` and variance `v`:
    `act` = max(((X n k − μ k) · rsqrt(v k + ε)) · γ k + β k, 0),   `out` = (∑ₖ act n k · W o k) + b o.
  The two variances agree when every entry of `X` is a real number: expand the square and use ∑ₙ X n d = 32768 · mean.
  Distributing a product over a sum is what needs the entries real: it fails at the infinities of the extended reals.
-/
import Idealize.ShloMosaic.PureOps.Ideal
import Idealize.ShloMosaic.Lib.ValueIdx

noncomputable section

open scoped BigOperators

namespace Cert.Spec

open Idealize.ShloMosaic

/-- The three float literals both programs carry, as their binary values: `+0.0`, `32768.0` and the f32 nearest `1e-5`. -/
abbrev c0 : EReal := Ideal.ofBits .f32 0x00000000#32
abbrev cN : EReal := Ideal.ofBits .f32 0x47000000#32
abbrev cEps : EReal := Ideal.ofBits .f32 0x3727C5AC#32

/-- The batch mean of feature `d`. -/
def mean (X : Fin 32768 → Fin 4096 → EReal) (d : Fin 4096) : EReal :=
  Ideal.div (∑ n : Fin 32768, X n d) cN

/-- The batch variance as second moment minus squared mean. -/
def varMom (X : Fin 32768 → Fin 4096 → EReal) (d : Fin 4096) : EReal :=
  Ideal.div (∑ n : Fin 32768, X n d * X n d) cN - mean X d * mean X d

/-- The batch variance as mean squared deviation from the mean. -/
def varDev (X : Fin 32768 → Fin 4096 → EReal) (d : Fin 4096) : EReal :=
  Ideal.div (∑ n : Fin 32768, (X n d - mean X d) * (X n d - mean X d)) cN

/-- The normalised, scaled, shifted and rectified entry `(n, k)`. -/
def act (X : Fin 32768 → Fin 4096 → EReal) (μ v γ β : Fin 4096 → EReal) (n : Fin 32768) (k : Fin 4096) : EReal :=
  max ((X n k - μ k) * Ideal.rsqrt (v k + cEps) * γ k + β k) c0

/-- The projected entry `(n, o)`. -/
def out (X : Fin 32768 → Fin 4096 → EReal) (μ v γ β : Fin 4096 → EReal) (W : Fin 256 → Fin 4096 → EReal)
    (b : Fin 256 → EReal) (n : Fin 32768) (o : Fin 256) : EReal :=
  (∑ k : Fin 4096, act X μ v γ β n k * W o k) + b o

/-- The divisor literal denotes the real number `32768 = 2 ^ 15`. -/
private theorem cN_eq : cN = ((32768 : ℝ) : EReal) := by
  simp [Ideal.ofBits, Ideal.ieee, -EReal.coe_mul]; norm_num

/-- A finite sum of real numbers, read in the extended reals, is the real sum. -/
private theorem coe_sum {ι : Type} (s : Finset ι) (f : ι → ℝ) :
    ∑ n ∈ s, ((f n : ℝ) : EReal) = ((∑ n ∈ s, f n : ℝ) : EReal) := by
  classical
  induction s using Finset.induction_on with
  | empty => simp
  | insert a s ha ih => rw [Finset.sum_insert ha, Finset.sum_insert ha, ih, EReal.coe_add]

/-- Over the reals, with `N` the number of samples and `μ = (∑ x) / N`:
    `∑ (x − μ)² = ∑ x² − 2 μ ∑ x + N μ² = ∑ x² − N μ²`, so the two variances agree. -/
private theorem real_var {ι : Type} [Fintype ι] (x : ι → ℝ) (N : ℝ) (hN : (Fintype.card ι : ℝ) = N)
    (hN0 : N ≠ 0) :
    (∑ n, x n * x n) * (1 / N) - ((∑ n, x n) * (1 / N)) * ((∑ n, x n) * (1 / N))
      = (∑ n, (x n - (∑ n, x n) * (1 / N)) * (x n - (∑ n, x n) * (1 / N))) * (1 / N) := by
  have h : ∀ μ : ℝ, ∑ n, (x n - μ) * (x n - μ)
      = (∑ n, x n * x n) - 2 * μ * (∑ n, x n) + N * (μ * μ) := by
    intro μ
    have e : ∀ n, (x n - μ) * (x n - μ) = x n * x n - 2 * μ * x n + μ * μ := fun n => by ring
    simp only [e]
    rw [Finset.sum_add_distrib, Finset.sum_sub_distrib, ← Finset.mul_sum, Finset.sum_const,
      Finset.card_univ, nsmul_eq_mul, hN]
  rw [h]
  field_simp
  ring

/-- For a batch of real numbers the two variances are one function of the feature. -/
theorem varMom_eq_varDev (X : Fin 32768 → Fin 4096 → EReal) (hX : ∀ n d, ∃ r : ℝ, X n d = (r : EReal)) :
    varMom X = varDev X := by
  funext d
  choose x hx using hX
  have hN0 : (32768 : ℝ) ≠ 0 := by norm_num
  have hcard : (Fintype.card (Fin 32768) : ℝ) = 32768 := by
    rw [Fintype.card_fin]; norm_num
  have hmean : mean X d = (((∑ n, x n d) * (1 / 32768) : ℝ) : EReal) := by
    unfold mean
    rw [cN_eq, Ideal.div_coe hN0]
    simp only [hx]
    rw [coe_sum, ← EReal.coe_mul]
  unfold varMom varDev
  rw [hmean, cN_eq, Ideal.div_coe hN0, Ideal.div_coe hN0]
  simp only [hx]
  simp only [← EReal.coe_mul, ← EReal.coe_sub, coe_sum]
  rw [real_var (fun n => x n d) 32768 hcard hN0]

end Cert.Spec

end
-- ==== Proof.Finite.lean ====
/-
  What the precondition gives the value proof: every entry of the batch is a real number.
-/
import proofs.«145961_j5119601016941_1_alg».proof.Defs
import proofs.«145961_j5119601016941_1_alg».proof.Proof.Gen.Pre_finite_inputs
import Idealize.ShloMosaic.Lib.ReduceAll
import Idealize.ShloMosaic.Lib.ValueIdx

noncomputable section

namespace Cert.KernelIdeal.Finite

open Cert.KernelIdeal
open Idealize.ShloMosaic Idealize.ShloMosaic.TcCoe Idealize.ShloMosaic.ValueIdx Idealize.SL.Sem
open scoped BigOperators

/-- An extended real whose absolute value is strictly below `⊤` is a real number. -/
private theorem real_of_abs_lt_top (x : EReal) (hx : Ideal.cmp .olt (max x (-x)) ⊤ = 1#1) :
    ∃ r : ℝ, x = (r : EReal) := by
  induction x using EReal.rec with
  | bot => simp [Ideal.cmp] at hx
  | coe r => exact ⟨r, rfl⟩
  | top => simp [Ideal.cmp] at hx

/-- The bit pattern of positive infinity denotes `⊤`. -/
private theorem ofBits_inf : Ideal.ofBits .f32 0x7F800000#32 = (⊤ : EReal) := by
  simp [Ideal.ofBits, Ideal.ieee]

/-- Under the precondition the first argument array holds real numbers only. -/
theorem x_real (m : (ℓ : Loc nD τ sig) → Buf (Elt Ideal) ℓ) (h : Cert.Pre_KernelIdeal m) (c : Dev nD) (i : S32768x4096.Idx) :
    ∃ r : ℝ, (m ((c.tc : Thread nD τ).loc main_arg0) : S32768x4096.Idx → EReal) i = (r : EReal) := by
  have h0 := congrFun (h c) ValueIdx.ix0
  dsimp only [Cert.Pre_finite_inputs.fn, Cert.Pre_finite_inputs.fn_part1] at h0
  -- the conjunction of the five `all`s: keep the first
  have h1 := (IntOp.andi_eq_one.1 h0).1
  have h2 := (IntOp.andi_eq_one.1 h1).1
  have h3 := (IntOp.andi_eq_one.1 h2).1
  have h4 := (IntOp.andi_eq_one.1 h3).1
  -- every entry of the compared array is 1 (a rank-0 result has one index)
  have h5 := Host.reduce_andi_eq_one _ _ _ _ ValueIdx.ix0 h4 i (funext fun d => d.elim0)
  -- the entry: |x i| < +inf
  rw [cmpf_apply] at h5
  refine real_of_abs_lt_top _ ?_
  refine Eq.trans ?_ h5
  show Ideal.cmp .olt _ ⊤ = Ideal.cmp .olt _ (Ideal.ofBits .f32 0x7F800000#32)
  rw [ofBits_inf]
  rfl

end Cert.KernelIdeal.Finite

end
-- ==== Proof.KArrays.lean ====
/-
  Names, at their literal types, for the arrays the two kernel regions read and write at the ideal instance: the contents
  `V` a region finds on entry, and each region's result arrays after its last grid point.  Arithmetic on entries is stated
  over these names.
-/
import proofs.«145961_j5119601016941_1_alg».proof.Proof.Gen.KernelIdeal.Frame
import Idealize.ShloMosaic.PureOps.Ideal

noncomputable section

namespace Cert.KernelIdeal.KArrays

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- The batch, the mean row, the variance row, the scale row, the shift row, the weights and the bias row, as a region finds them. -/
abbrev xarr (c : Dev nD) : FVec Ideal S32768x4096 .f32 := V c main_arg0
abbrev meanArr (c : Dev nD) : FVec Ideal S1x4096 .f32 := V c main_v2
abbrev varArr (c : Dev nD) : FVec Ideal S1x4096 .f32 := V c main_v6
abbrev gammaArr (c : Dev nD) : FVec Ideal S1x4096 .f32 := V c main_v7
abbrev betaArr (c : Dev nD) : FVec Ideal S1x4096 .f32 := V c main_v8
abbrev wArr (c : Dev nD) : FVec Ideal S256x4096 .f32 := V c main_arg3
abbrev biasArr (c : Dev nD) : FVec Ideal S1x256 .f32 := V c main_v9

/-- The statistics region's two result arrays after its last grid point. -/
abbrev sumOut (c : Dev nD) : FVec Ideal S1x4096 .f32 := (dat0 (F := Ideal) V c).arrAt 1 cfg0.N
abbrev sumsqOut (c : Dev nD) : FVec Ideal S1x4096 .f32 := (dat0 (F := Ideal) V c).arrAt 2 cfg0.N
/-- The projection region's result array after its last grid point. -/
abbrev projOut (c : Dev nD) : FVec Ideal S32768x256 .f32 := (dat1 (F := Ideal) V c).arrAt 7 cfg1.N

end Cert.KernelIdeal.KArrays

end
-- ==== Proof.KStats.lean ====
/-
  The first kernel region (the statistics pass) read as values at the ideal instance: after its 32 grid points the two
  one-row result arrays hold, per feature, the sum of the batch column and the sum of its squares.
-/
import proofs.«145961_j5119601016941_1_alg».proof.Proof.KArrays
import Idealize.ShloMosaic.Lib.Pipeline.Value
import Idealize.ShloMosaic.Lib.ValueIdx
import Idealize.ShloMosaic.PureOps.Ideal.Laws

noncomputable section

namespace Cert.KernelIdeal.KStats

open Cert.KernelIdeal Cert.KernelIdeal.Gen Cert.KernelIdeal.KArrays
open Idealize.ShloMosaic Idealize.ShloMosaic.TcCoe Idealize.ShloMosaic.ValueIdx Idealize.SL.Sem
open scoped BigOperators
open Idealize.ShloMosaic.Pipeline (Dat)

section Pieces

variable {F : FTy → Type} [FloatOps F]

/-- The zero offsets of a whole-block access, as a constant function. -/
theorem hz : (![0, 0] : Fin 2 → Nat) = fun _ => 0 :=
  funext fun a => by match a with | ⟨0, _⟩ => rfl | ⟨1, _⟩ => rfl

/-- At a later point the first result block, holding `xo1`, is left at `xo1` plus the column sums of the input block. -/
theorem out_B_1 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : ¬cond0_0 i) (x : Vec F S1024x4096 .f32) (xo1 xo2 : Vec F S1x4096 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero (S := S1x4096) hz]
  simp only [View.readAt_eq_ld, h1.read_unread, h2.read_unread, View.ld_unit_zero (S := S1024x4096) hz,
    View.ld_unit_zero (S := S1x4096) hz]

/-- At a later point the second result block, holding `xo2`, is left at `xo2` plus the column sums of the squared block. -/
theorem out_B_2 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : ¬cond0_0 i) (x : Vec F S1024x4096 .f32) (xo1 xo2 : Vec F S1x4096 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero (S := S1x4096) hz]
  simp only [View.readAt_eq_ld, h1.read_unread, h3.read_unread, View.ld_unit_zero (S := S1024x4096) hz,
    View.ld_unit_zero (S := S1x4096) hz]

/-- At the first point the first result block is zeroed, read back, and left at the zero row plus the column sums. -/
theorem out_A_1 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : cond0_0 i) (x : Vec F S1024x4096 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S1024x4096) hz]

/-- At the first point the second result block is zeroed, read back, and left at the zero row plus the column sums of the squares. -/
theorem out_A_2 (c : Dev nD) (i : grid0.Coords) (a1 : Memref sig .tc .vmem S1024x4096 .f32) (h1 : a1.IsWhole)
    (a2 : Memref sig .tc .vmem S1x4096 .f32) (h2 : a2.IsWhole) (a3 : Memref sig .tc .vmem S1x4096 .f32) (h3 : a3.IsWhole)
    (hc : cond0_0 i) (x : Vec F S1024x4096 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S1024x4096) hz]

end Pieces

section Entries

/-- The column sums of a block, read at a lane: the sum over the block's rows. -/
theorem colsum_apply (x : FVec Ideal S1024x4096 .f32) (d : Fin 4096) :
    shapeCast S1x4096 (multiReduction (F := Ideal) .add [0] S4096 x 0x00000000#32 reduces_S1024x4096_S4096 (.inl rfl) rfl)
      shapeCasts_S4096_S1x4096 (ix2 (0 : Fin 1) d) = ∑ r : Fin 1024, x (ix2 r d) := by
  refine (shapeCast_apply _ shapeCasts_S4096_S1x4096 (ix2 (0 : Fin 1) d) (ix1 d) ?_).trans ?_
  · rw [Shape.rowMajor_val_one, Shape.rowMajor_val_two]
    show d.val = 0 * 4096 + d.val
    omega
  · refine (Ideal.multiReduction_add_single x 0x00000000#32 reduces_S1024x4096_S4096 (.inl rfl) rfl (ix1 d)).trans ?_
    show ∑ k : Fin 1024, x (reduces_S1024x4096_S4096.lift (ix1 d) k) = ∑ r : Fin 1024, x (ix2 r d)
    refine Finset.sum_congr rfl fun k _ => congrArg x ?_
    funext a
    match a with
    | ⟨0, _⟩ => rfl
    | ⟨1, _⟩ => rfl

/-- The first update at a lane: the previous entry plus the sum of the block's column. -/
theorem pay3_apply (x : FVec Ideal S1024x4096 .f32) (v : FVec Ideal S1x4096 .f32) (d : Fin 4096) :
    k0_pay3 (F := Ideal) x v (ix2 (0 : Fin 1) d) = v (ix2 (0 : Fin 1) d) + ∑ r : Fin 1024, x (ix2 r d) := by
  unfold k0_pay3
  exact congrArg₂ (· + ·) (congrFun (shapeCast_self v shapeCasts_S1x4096_S1x4096) (ix2 (0 : Fin 1) d)) (colsum_apply x d)

/-- The second update at a lane: the previous entry plus the sum of the squares of the block's column. -/
theorem pay4_apply (x : FVec Ideal S1024x4096 .f32) (v : FVec Ideal S1x4096 .f32) (d : Fin 4096) :
    k0_pay4 (F := Ideal) x v (ix2 (0 : Fin 1) d)
      = v (ix2 (0 : Fin 1) d) + ∑ r : Fin 1024, x (ix2 r d) * x (ix2 r d) := by
  unfold k0_pay4
  exact congrArg₂ (· + ·) (congrFun (shapeCast_self v shapeCasts_S1x4096_S1x4096) (ix2 (0 : Fin 1) d))
    ((colsum_apply (mulf x x) d).trans (Finset.sum_congr rfl fun r _ => mulf_apply x x (ix2 r d)))

/-- The zero rows the first point stores are zero at every entry. -/
theorem pay1_apply (j : S1x4096.Idx) : k0_pay1 (F := Ideal) j = 0 := Ideal.ofBits_zero_f32
theorem pay2_apply (j : S1x4096.Idx) : k0_pay2 (F := Ideal) j = 0 := Ideal.ofBits_zero_f32

end Entries

variable (V : (c : Dev nD) → (b : Ref sig .tc) → Buf (Elt Ideal) ((c : Thread nD τ).loc b))

/-- The input block of the batch at a grid point, at its literal type. -/
abbrev xblk (c : Dev nD) (t : Fin cfg0.N) : FVec Ideal S1024x4096 .f32 := iblk0 (F := Ideal) V c 0 t

/-- The input window's block index at a point: the point itself along the rows, zero along the lanes. -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `r` of the block at point `n` is row `1024 n + r` of the batch. -/
theorem xblk_apply (c : Dev nD) (n : ℕ) (hn : n < cfg0.N) (r : Fin 1024) (d : Fin 4096) (h : 1024 * n + r.val < 32768) :
    xblk V c ⟨n, hn⟩ (ix2 r d) = xarr V c (ix2 ⟨1024 * n + r.val, h⟩ d) := by
  unfold xblk iblk0
  rw [View.read_apply]
  show V c main_arg0 _ = V c main_arg0 _
  congr 1
  funext a
  apply Fin.ext
  match a with
  | ⟨0, _⟩ =>
    show win0_0.index ⟨n, hn⟩ 0 * 1024 + 1 * r.val = 1024 * n + r.val
    rw [(idx_facts ⟨n, hn⟩).1]
    show n * 1024 + 1 * r.val = 1024 * n + r.val
    omega
  | ⟨1, _⟩ =>
    show win0_0.index ⟨n, hn⟩ 1 * 4096 + 1 * d.val = d.val
    rw [(idx_facts ⟨n, hn⟩).2]
    omega

/-- Column `d` of the batch as a sequence of its rows (zero past the last row). -/
def col (c : Dev nD) (d : Fin 4096) (i : ℕ) : EReal :=
  if h : i < 32768 then xarr V c (ix2 ⟨i, h⟩ d) else 0

/-- The sum of the block's column at point `n` is the sum of the batch column over rows `1024 n … 1024 n + 1023`. -/
theorem blk_sum (c : Dev nD) (n : ℕ) (hn : n < cfg0.N) (d : Fin 4096) :
    ∑ r : Fin 1024, xblk V c ⟨n, hn⟩ (ix2 r d) = ∑ r ∈ Finset.range 1024, col V c d (1024 * n + r) := by
  have hN : cfg0.N = 32 := N_0
  rw [Finset.sum_range]
  refine Finset.sum_congr rfl fun r _ => ?_
  have h : 1024 * n + r.val < 32768 := by have := r.isLt; omega
  rw [xblk_apply V c n hn r d h]
  unfold col
  rw [dif_pos h]

/-- The same for the squares. -/
theorem blk_sumsq (c : Dev nD) (n : ℕ) (hn : n < cfg0.N) (d : Fin 4096) :
    ∑ r : Fin 1024, xblk V c ⟨n, hn⟩ (ix2 r d) * xblk V c ⟨n, hn⟩ (ix2 r d)
      = ∑ r ∈ Finset.range 1024, col V c d (1024 * n + r) * col V c d (1024 * n + r) := by
  have hN : cfg0.N = 32 := N_0
  rw [Finset.sum_range]
  refine Finset.sum_congr rfl fun r _ => ?_
  have h : 1024 * n + r.val < 32768 := by have := r.isLt; omega
  rw [xblk_apply V c n hn r d h]
  unfold col
  rw [dif_pos h]

/-- At the first point the first result block's entry is the zero plus the block's column sum. -/
theorem first_1 (c : Dev nD) (t : Fin cfg0.N) (h0 : t.val % 32 = 0) (d : Fin 4096) :
    (outsAt0 V c t.val t.isLt).1 (ix2 (0 : Fin 1) d) = 0 + ∑ r : Fin 1024, xblk V c t (ix2 r d) := by
  rw [outsAt0_A V c t h0]
  dsimp only
  refine (congrFun (out_A_1 (F := Ideal) c (grid0.coords t) (ms0_0 t) (hs0_0 t) (ms0_1 t) (hs0_1 t) (ms0_2 t) (hs0_2 t)
    ((hcond0_0 t).mpr h0) (xblk V c t)) (ix2 (0 : Fin 1) d)).trans ?_
  refine (pay3_apply (xblk V c t) (k0_pay1 (F := Ideal)) d).trans ?_
  rw [pay1_apply]

/-- At the first point the second result block's entry is the zero plus the block's column sum of squares. -/
theorem first_2 (c : Dev nD) (t : Fin cfg0.N) (h0 : t.val % 32 = 0) (d : Fin 4096) :
    (outsAt0 V c t.val t.isLt).2 (ix2 (0 : Fin 1) d)
      = 0 + ∑ r : Fin 1024, xblk V c t (ix2 r d) * xblk V c t (ix2 r d) := by
  rw [outsAt0_A V c t h0]
  dsimp only
  refine (congrFun (out_A_2 (F := Ideal) c (grid0.coords t) (ms0_0 t) (hs0_0 t) (ms0_1 t) (hs0_1 t) (ms0_2 t) (hs0_2 t)
    ((hcond0_0 t).mpr h0) (xblk V c t)) (ix2 (0 : Fin 1) d)).trans ?_
  refine (pay4_apply (xblk V c t) (k0_pay2 (F := Ideal)) d).trans ?_
  rw [pay2_apply]

/-- At a later point the first result block's entry is the entry the point before left plus the block's column sum. -/
theorem later_1 (c : Dev nD) (t : Fin cfg0.N) (h0 : ¬t.val % 32 = 0) (d : Fin 4096) :
    (outsAt0 V c t.val t.isLt).1 (ix2 (0 : Fin 1) d)
      = (outsAt0 V c (t.val - 1) (Nat.lt_of_le_of_lt (Nat.sub_le _ _) t.isLt)).1 (ix2 (0 : Fin 1) d)
        + ∑ r : Fin 1024, xblk V c t (ix2 r d) := by
  rw [outsAt0_B V c t h0]
  dsimp only
  refine (congrFun (out_B_1 (F := Ideal) c (grid0.coords t) (ms0_0 t) (hs0_0 t) (ms0_1 t) (hs0_1 t) (ms0_2 t) (hs0_2 t)
    (fun h => h0 ((hcond0_0 t).mp h)) (xblk V c t)
    (outsAt0 V c (t.val - 1) (Nat.lt_of_le_of_lt (Nat.sub_le _ _) t.isLt)).1
    (outsAt0 V c (t.val - 1) (Nat.lt_of_le_of_lt (Nat.sub_le _ _) t.isLt)).2) (ix2 (0 : Fin 1) d)).trans ?_
  exact pay3_apply (xblk V c t) (outsAt0 V c (t.val - 1) (Nat.lt_of_le_of_lt (Nat.sub_le _ _) t.isLt)).1 d

/-- At a later point the second result block's entry is the entry the point before left plus the block's column sum of squares. -/
theorem later_2 (c : Dev nD) (t : Fin cfg0.N) (h0 : ¬t.val % 32 = 0) (d : Fin 4096) :
    (outsAt0 V c t.val t.isLt).2 (ix2 (0 : Fin 1) d)
      = (outsAt0 V c (t.val - 1) (Nat.lt_of_le_of_lt (Nat.sub_le _ _) t.isLt)).2 (ix2 (0 : Fin 1) d)
        + ∑ r : Fin 1024, xblk V c t (ix2 r d) * xblk V c t (ix2 r d) := by
  rw [outsAt0_B V c t h0]
  dsimp only
  refine (congrFun (out_B_2 (F := Ideal) c (grid0.coords t) (ms0_0 t) (hs0_0 t) (ms0_1 t) (hs0_1 t) (ms0_2 t) (hs0_2 t)
    (fun h => h0 ((hcond0_0 t).mp h)) (xblk V c t)
    (outsAt0 V c (t.val - 1) (Nat.lt_of_le_of_lt (Nat.sub_le _ _) t.isLt)).1
    (outsAt0 V c (t.val - 1) (Nat.lt_of_le_of_lt (Nat.sub_le _ _) t.isLt)).2) (ix2 (0 : Fin 1) d)).trans ?_
  exact pay4_apply (xblk V c t) (outsAt0 V c (t.val - 1) (Nat.lt_of_le_of_lt (Nat.sub_le _ _) t.isLt)).2 d

/-- After point `n` the first result block holds, at lane `d`, the sum of the batch column over the rows below `1024 (n + 1)`. -/
theorem sum_inv (c : Dev nD) (d : Fin 4096) : ∀ (n : ℕ) (h : n < cfg0.N),
    (outsAt0 V c n h).1 (ix2 (0 : Fin 1) d) = ∑ i ∈ Finset.range (1024 * (n + 1)), col V c d i
  | 0, h => by
    refine (first_1 V c ⟨0, h⟩ rfl d).trans ?_
    rw [zero_add, blk_sum V c 0 h d]
    rfl
  | n + 1, h => by
    have hN : cfg0.N = 32 := N_0
    have hB : ¬(⟨n + 1, h⟩ : Fin cfg0.N).val % 32 = 0 := by dsimp only; omega
    refine (later_1 V c ⟨n + 1, h⟩ hB d).trans ?_
    show (outsAt0 V c n _).1 (ix2 (0 : Fin 1) d) + _ = _
    rw [sum_inv c d n, blk_sum V c (n + 1) h d, show 1024 * (n + 1 + 1) = 1024 * (n + 1) + 1024 by omega,
      Finset.sum_range_add]

/-- After point `n` the second result block holds, at lane `d`, the sum of the squares of the batch column over the rows below `1024 (n + 1)`. -/
theorem sumsq_inv (c : Dev nD) (d : Fin 4096) : ∀ (n : ℕ) (h : n < cfg0.N),
    (outsAt0 V c n h).2 (ix2 (0 : Fin 1) d) = ∑ i ∈ Finset.range (1024 * (n + 1)), col V c d i * col V c d i
  | 0, h => by
    refine (first_2 V c ⟨0, h⟩ rfl d).trans ?_
    rw [zero_add, blk_sumsq V c 0 h d]
    rfl
  | n + 1, h => by
    have hN : cfg0.N = 32 := N_0
    have hB : ¬(⟨n + 1, h⟩ : Fin cfg0.N).val % 32 = 0 := by dsimp only; omega
    refine (later_2 V c ⟨n + 1, h⟩ hB d).trans ?_
    show (outsAt0 V c n _).2 (ix2 (0 : Fin 1) d) + _ = _
    rw [sumsq_inv c d n, blk_sumsq V c (n + 1) h d, show 1024 * (n + 1 + 1) = 1024 * (n + 1) + 1024 by omega,
      Finset.sum_range_add]

/-- The grid has a point 31, its last. -/
theorem lt_last : 31 < cfg0.N := by rw [show cfg0.N = 32 from N_0]; decide

/-- What the two result blocks hold after the last point, as contents of the two result arrays. -/
abbrev res1 (c : Dev nD) : Buf (Elt Ideal) ((c : Thread nD τ).loc main_v0_0) := (outsAt0 V c 31 lt_last).1
abbrev res2 (c : Dev nD) : Buf (Elt Ideal) ((c : Thread nD τ).loc main_v0_1) := (outsAt0 V c 31 lt_last).2

/-- The result windows' block index is zero on both axes at every point: their one block never moves. -/
theorem idx1_facts : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2_facts : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The one write-back of the first result window, at the last point, writes the block the run has left:
    the block at zero offsets of the one-row array is the array. -/
theorem flushed1_eq (c : Dev nD) (t : Fin cfg0.N) (hf : (cfg0.win 1).flush t = true) :
    (dat0 V c).flushed 1 t = ((cfg0.win 1).blk t).view.read (Elt Ideal) (res1 V c) := by
  have hN : cfg0.N = 32 := N_0
  have h31 : t.val = 31 := by have := (flush0_1 t).mp hf; have := t.isLt; omega
  obtain rfl : t = ⟨31, lt_last⟩ := Fin.ext h31
  show (cfg0.win 1).cut (grid0.coords ⟨31, lt_last⟩) ((dat0 V c).after 1 ⟨31, lt_last⟩) = _
  rw [after0_1]
  have hz' : (fun a => win0_1.index ⟨31, lt_last⟩ a * main_v0_0.ty.shape.size a) = fun _ => 0 :=
    funext fun a => by
      match a with
      | ⟨0, _⟩ =>
        show win0_1.index ⟨31, lt_last⟩ 0 * main_v0_0.ty.shape.size 0 = 0
        rw [(idx1_facts ⟨31, lt_last⟩).1, Nat.zero_mul]
      | ⟨1, _⟩ =>
        show win0_1.index ⟨31, lt_last⟩ 1 * main_v0_0.ty.shape.size 1 = 0
        rw [(idx1_facts ⟨31, lt_last⟩).2, Nat.zero_mul]
  exact (Memref.read_access_unit_zero (Elt Ideal) main_v0_0 hz' (fun a => by rw [congrFun hz' a]; simp) (res1 V c)).symm

/-- The same for the second result window. -/
theorem flushed2_eq (c : Dev nD) (t : Fin cfg0.N) (hf : (cfg0.win 2).flush t = true) :
    (dat0 V c).flushed 2 t = ((cfg0.win 2).blk t).view.read (Elt Ideal) (res2 V c) := by
  have hN : cfg0.N = 32 := N_0
  have h31 : t.val = 31 := by have := (flush0_2 t).mp hf; have := t.isLt; omega
  obtain rfl : t = ⟨31, lt_last⟩ := Fin.ext h31
  show (cfg0.win 2).cut (grid0.coords ⟨31, lt_last⟩) ((dat0 V c).after 2 ⟨31, lt_last⟩) = _
  rw [after0_2]
  have hz' : (fun a => win0_2.index ⟨31, lt_last⟩ a * main_v0_1.ty.shape.size a) = fun _ => 0 :=
    funext fun a => by
      match a with
      | ⟨0, _⟩ =>
        show win0_2.index ⟨31, lt_last⟩ 0 * main_v0_1.ty.shape.size 0 = 0
        rw [(idx2_facts ⟨31, lt_last⟩).1, Nat.zero_mul]
      | ⟨1, _⟩ =>
        show win0_2.index ⟨31, lt_last⟩ 1 * main_v0_1.ty.shape.size 1 = 0
        rw [(idx2_facts ⟨31, lt_last⟩).2, Nat.zero_mul]
  exact (Memref.read_access_unit_zero (Elt Ideal) main_v0_1 hz' (fun a => by rw [congrFun hz' a]; simp) (res2 V c)).symm

/-- The last point's block covers the whole first result array, so the array ends holding what the run has left. -/
theorem final1 (c : Dev nD) : (dat0 V c).arrAt 1 cfg0.N = res1 V c :=
  (dat0 V c).arrAt_eq_of_cover 1 (res1 V c) (flushed1_eq V c) fun i =>
    ⟨⟨31, lt_last⟩, (flush0_1 ⟨31, lt_last⟩).mpr rfl, by
      show i ∈ ((View.whole main_v0_0).slice (win0_1.rect ⟨31, lt_last⟩)).set
      rw [View.set_slice_whole, Rect.mem_set_unit]
      intro a
      have h0 : (i 0 : Nat) < 1 := (i 0).isLt
      have h1 : (i 1 : Nat) < 4096 := (i 1).isLt
      match a with
      | ⟨0, _⟩ =>
        show win0_1.index ⟨31, lt_last⟩ 0 * win0_1.size 0 ≤ (i 0 : Nat)
          ∧ (i 0 : Nat) < win0_1.index ⟨31, lt_last⟩ 0 * win0_1.size 0 + win0_1.xsize (grid0.coords ⟨31, lt_last⟩) 0
        rw [show win0_1.index ⟨31, lt_last⟩ 0 * win0_1.size 0 = 0 from by decide +kernel,
          show win0_1.xsize (grid0.coords ⟨31, lt_last⟩) 0 = 1 from by decide +kernel]
        omega
      | ⟨1, _⟩ =>
        show win0_1.index ⟨31, lt_last⟩ 1 * win0_1.size 1 ≤ (i 1 : Nat)
          ∧ (i 1 : Nat) < win0_1.index ⟨31, lt_last⟩ 1 * win0_1.size 1 + win0_1.xsize (grid0.coords ⟨31, lt_last⟩) 1
        rw [show win0_1.index ⟨31, lt_last⟩ 1 * win0_1.size 1 = 0 from by decide +kernel,
          show win0_1.xsize (grid0.coords ⟨31, lt_last⟩) 1 = 4096 from by decide +kernel]
        omega⟩

/-- The same for the second result array. -/
theorem final2 (c : Dev nD) : (dat0 V c).arrAt 2 cfg0.N = res2 V c :=
  (dat0 V c).arrAt_eq_of_cover 2 (res2 V c) (flushed2_eq V c) fun i =>
    ⟨⟨31, lt_last⟩, (flush0_2 ⟨31, lt_last⟩).mpr rfl, by
      show i ∈ ((View.whole main_v0_1).slice (win0_2.rect ⟨31, lt_last⟩)).set
      rw [View.set_slice_whole, Rect.mem_set_unit]
      intro a
      have h0 : (i 0 : Nat) < 1 := (i 0).isLt
      have h1 : (i 1 : Nat) < 4096 := (i 1).isLt
      match a with
      | ⟨0, _⟩ =>
        show win0_2.index ⟨31, lt_last⟩ 0 * win0_2.size 0 ≤ (i 0 : Nat)
          ∧ (i 0 : Nat) < win0_2.index ⟨31, lt_last⟩ 0 * win0_2.size 0 + win0_2.xsize (grid0.coords ⟨31, lt_last⟩) 0
        rw [show win0_2.index ⟨31, lt_last⟩ 0 * win0_2.size 0 = 0 from by decide +kernel,
          show win0_2.xsize (grid0.coords ⟨31, lt_last⟩) 0 = 1 from by decide +kernel]
        omega
      | ⟨1, _⟩ =>
        show win0_2.index ⟨31, lt_last⟩ 1 * win0_2.size 1 ≤ (i 1 : Nat)
          ∧ (i 1 : Nat) < win0_2.index ⟨31, lt_last⟩ 1 * win0_2.size 1 + win0_2.xsize (grid0.coords ⟨31, lt_last⟩) 1
        rw [show win0_2.index ⟨31, lt_last⟩ 1 * win0_2.size 1 = 0 from by decide +kernel,
          show win0_2.xsize (grid0.coords ⟨31, lt_last⟩) 1 = 4096 from by decide +kernel]
        omega⟩

/-- The sum of the column sequence over all 32768 rows is the sum of the batch column. -/
theorem col_total (c : Dev nD) (d : Fin 4096) :
    ∑ i ∈ Finset.range (1024 * (31 + 1)), col V c d i = ∑ n : Fin 32768, xarr V c (ix2 n d) := by
  show ∑ i ∈ Finset.range 32768, col V c d i = _
  rw [Finset.sum_range]
  refine Finset.sum_congr rfl fun i _ => ?_
  unfold col
  rw [dif_pos i.isLt]

/-- The same for the squares. -/
theorem colsq_total (c : Dev nD) (d : Fin 4096) :
    ∑ i ∈ Finset.range (1024 * (31 + 1)), col V c d i * col V c d i
      = ∑ n : Fin 32768, xarr V c (ix2 n d) * xarr V c (ix2 n d) := by
  show ∑ i ∈ Finset.range 32768, col V c d i * col V c d i = _
  rw [Finset.sum_range]
  refine Finset.sum_congr rfl fun i _ => ?_
  unfold col
  rw [dif_pos i.isLt]

/-- The first result array of the region ends holding the column sums of the batch the region found. -/
theorem sum_arr (c : Dev nD) (d : Fin 4096) :
    sumOut V c (ix2 (0 : Fin 1) d) = ∑ n : Fin 32768, xarr V c (ix2 n d) := by
  refine (congrFun (final1 V c) (ix2 (0 : Fin 1) d)).trans ?_
  exact (sum_inv V c d 31 lt_last).trans (col_total V c d)

/-- The second result array ends holding the column sums of the squares. -/
theorem sumsq_arr (c : Dev nD) (d : Fin 4096) :
    sumsqOut V c (ix2 (0 : Fin 1) d) = ∑ n : Fin 32768, xarr V c (ix2 n d) * xarr V c (ix2 n d) := by
  refine (congrFun (final2 V c) (ix2 (0 : Fin 1) d)).trans ?_
  exact (sumsq_inv V c d 31 lt_last).trans (colsq_total V c d)

end Cert.KernelIdeal.KStats

end
-- ==== Proof.KProj.lean ====
/-
  The second kernel region (normalise, rectify, project) read as values at the ideal instance: entry (n, o) of its result
  array is the bias plus the sum over the features of the rectified normalised entry (n, k) times the weight (o, k),
  the mean, variance, scale, shift and bias read from the one-row arrays the region found.
-/
import proofs.«145961_j5119601016941_1_alg».proof.Proof.KArrays
import proofs.«145961_j5119601016941_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KProj

open Cert.KernelIdeal Cert.KernelIdeal.Gen Cert.KernelIdeal.KArrays
open Idealize.ShloMosaic Idealize.ShloMosaic.TcCoe Idealize.ShloMosaic.ValueIdx Idealize.SL.Sem
open scoped BigOperators
open Idealize.ShloMosaic.Pipeline (Dat)

/-! ## The body's arithmetic at an entry of the block -/

/-! The body's matrix product contracts both operands along their feature axis (axis 1); the row axis (axis 0) of the
    left operand indexes the result's rows and that of the right operand the result's columns.  The four lemmas read the
    two operand indices of a product term axis by axis. -/

theorem lhs_axis_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_axis_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_axis_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_axis_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The matrix product into a zero accumulator at entry (p, q): the sum over the features of row p of the left operand
    times row q of the right one. -/
theorem matmul_apply (l r : FVec Ideal S256x4096 .bf16) (p q : Fin 256) :
    matmul dot_S256x4096_S256x4096_S256x256_1_1_0_0_n_n none l r (constant (F := Ideal) S256x256 .f32 0x00000000#32) (ix2 p q)
      = ∑ k : Fin 4096, l (ix2 p k) * r (ix2 q k) := by
  refine (Ideal.matmul_constant_zero_apply dot_S256x4096_S256x4096_S256x256_1_1_0_0_n_n none l r (ix2 p q)).trans ?_
  rw [← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p q) ((ValueIdx.contrEquiv1 dot_S256x4096_S256x4096_S256x256_1_1_0_0_n_n 4096 rfl rfl).symm k) = ix2 p k := funext fun a => Fin.ext (by
    match a with
    | ⟨0, _⟩ => exact lhs_axis_0 _ _
    | ⟨1, _⟩ => exact (lhs_axis_1 _ _).trans hk)
  have er : dot_S256x4096_S256x4096_S256x256_1_1_0_0_n_n.rhsIdx (ix2 p q) ((ValueIdx.contrEquiv1 dot_S256x4096_S256x4096_S256x256_1_1_0_0_n_n 4096 rfl rfl).symm k) = ix2 q k := funext fun a => Fin.ext (by
    match a with
    | ⟨0, _⟩ => exact rhs_axis_0 _ _
    | ⟨1, _⟩ => exact (rhs_axis_1 _ _).trans hk)
  rw [el, er]

/-- The body's stored value at entry (p, q) of the block, from the seven blocks it loads. -/
theorem pay_apply (x0 : FVec Ideal S256x4096 .f32) (x1 x2 x3 x4 : FVec Ideal S1x4096 .f32) (x5 : FVec Ideal S256x4096 .f32)
    (x6 : FVec Ideal S1x256 .f32) (p q : Fin 256) :
    k1_pay1 (F := Ideal) x0 x1 x2 x3 x4 x5 x6 (ix2 p q)
      = (∑ k : Fin 4096,
          max (((x0 (ix2 p k) - x1 (ix2 (0 : Fin 1) k)) * Ideal.rsqrt (x2 (ix2 (0 : Fin 1) k) + Cert.Spec.cEps))
               * x3 (ix2 (0 : Fin 1) k) + x4 (ix2 (0 : Fin 1) k)) Cert.Spec.c0
          * x5 (ix2 q k))
        + x6 (ix2 (0 : Fin 1) q) := by
  unfold k1_pay1
  simp only [shapeCast_self]
  refine (addf_apply _ _ (ix2 p q)).trans ?_
  refine congrArg₂ (· + ·) ?_ (broadcastTo_1b_ab_apply x6 broadcasts_S1x256_S256x256 p q)
  refine (matmul_apply _ _ p q).trans ?_
  refine Finset.sum_congr rfl fun k _ => ?_
  refine congrArg₂ (· * ·) ?_ (truncf_apply (ψ := FTy.bf16) (φ := FTy.f32) x5 bitsLt_bf16_f32 (ix2 q k))
  have h1 := broadcastTo_1b_ab_apply x1 broadcasts_S1x4096_S256x4096 p k
  have h2 := broadcastTo_1b_ab_apply (rsqrt (addf x2 (broadcast S1x4096 (FloatOps.ofBits FTy.f32 0x3727C5AC#32)))) broadcasts_S1x4096_S256x4096 p k
  have h3 := broadcastTo_1b_ab_apply x3 broadcasts_S1x4096_S256x4096 p k
  have h4 := broadcastTo_1b_ab_apply x4 broadcasts_S1x4096_S256x4096 p k
  refine (truncf_apply (ψ := FTy.bf16) (φ := FTy.f32) _ bitsLt_bf16_f32 (ix2 p k)).trans ?_
  refine (maximumf_apply _ _ _).trans ?_
  refine congrArg₂ max ?_ rfl
  refine (addf_apply _ _ _).trans ?_
  refine congrArg₂ (· + ·) ?_ h4
  refine (mulf_apply _ _ _).trans ?_
  refine congrArg₂ (· * ·) ?_ h3
  refine (mulf_apply _ _ _).trans ?_
  refine congrArg₂ (· * ·) ?_ (h2.trans rfl)
  refine (subf_apply _ _ _).trans ?_
  exact congrArg₂ (· - ·) rfl h1

/-! ## From the blocks to the array -/

/-- The whole result array as one function of the seven arrays the region reads. -/
def Gf (X : FVec Ideal S32768x4096 .f32) (M Va Ga Be : FVec Ideal S1x4096 .f32) (W : FVec Ideal S256x4096 .f32)
    (B : FVec Ideal S1x256 .f32) : FVec Ideal S32768x256 .f32 := fun i =>
  (∑ k : Fin 4096,
    max (((X (ix2 (⟨(i 0).val, idx2_lt0 i⟩ : Fin 32768) k) - M (ix2 (0 : Fin 1) k)) * Ideal.rsqrt (Va (ix2 (0 : Fin 1) k) + Cert.Spec.cEps))
         * Ga (ix2 (0 : Fin 1) k) + Be (ix2 (0 : Fin 1) k)) Cert.Spec.c0
    * W (ix2 (⟨(i 1).val, idx2_lt1 i⟩ : Fin 256) k))
  + B (ix2 (0 : Fin 1) (⟨(i 1).val, idx2_lt1 i⟩ : Fin 256))

/-- The body's stored block at grid point t is rows 256 t … 256 t + 255 of that function, when the batch block holds those
    rows of the batch and the six other blocks are the whole arrays. -/
theorem point_eq (X : FVec Ideal S32768x4096 .f32) (M Va Ga Be : FVec Ideal S1x4096 .f32) (W : FVec Ideal S256x4096 .f32)
    (B : FVec Ideal S1x256 .f32) (x0 : FVec Ideal S256x4096 .f32) (x1 x2 x3 x4 : FVec Ideal S1x4096 .f32)
    (x5 : FVec Ideal S256x4096 .f32) (x6 : FVec Ideal S1x256 .f32) (t : ℕ)
    (h0 : ∀ (p : Fin 256) (k : Fin 4096) (n : Fin 32768), n.val = t * 256 + p.val → x0 (ix2 p k) = X (ix2 n k))
    (h1 : x1 = M) (h2 : x2 = Va) (h3 : x3 = Ga) (h4 : x4 = Be) (h5 : x5 = W) (h6 : x6 = B)
    (j : S256x256.Idx) (i : S32768x256.Idx) (hi0 : (i 0).val = t * 256 + (j 0).val) (hi1 : (i 1).val = (j 1).val) :
    k1_pay1 (F := Ideal) x0 x1 x2 x3 x4 x5 x6 j = Gf X M Va Ga Be W B i := by
  obtain ⟨p, q, rfl⟩ : ∃ (p q : Fin 256), j = ix2 p q := ⟨j 0, j 1, eq_ix2 j⟩
  subst h1 h2 h3 h4 h5 h6
  have hq : (⟨(i 1).val, idx2_lt1 i⟩ : Fin 256) = q := Fin.ext hi1
  refine (pay_apply x0 x1 x2 x3 x4 x5 x6 p q).trans ?_
  unfold Gf
  rw [hq]
  refine congrArg₂ (· + ·) (Finset.sum_congr rfl fun k _ => ?_) rfl
  rw [h0 p k ⟨(i 0).val, idx2_lt0 i⟩ hi0]

theorem hz : (![0, 0] : Fin 2 → Nat) = fun _ => 0 := funext fun a => by
  match a with
  | ⟨0, _⟩ => rfl
  | ⟨1, _⟩ => rfl

/-- The windows' index maps over the grid: the batch's block and the result's block move with the point along the rows,
    every other block stays at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The seven input blocks at a grid point, at their literal types. -/
abbrev xblk (c : Dev nD) (t : Fin cfg1.N) : FVec Ideal S256x4096 .f32 := iblk1 V c 0 t
abbrev meanBlk (c : Dev nD) (t : Fin cfg1.N) : FVec Ideal S1x4096 .f32 := iblk1 V c 1 t
abbrev varBlk (c : Dev nD) (t : Fin cfg1.N) : FVec Ideal S1x4096 .f32 := iblk1 V c 2 t
abbrev gammaBlk (c : Dev nD) (t : Fin cfg1.N) : FVec Ideal S1x4096 .f32 := iblk1 V c 3 t
abbrev betaBlk (c : Dev nD) (t : Fin cfg1.N) : FVec Ideal S1x4096 .f32 := iblk1 V c 4 t
abbrev wBlk (c : Dev nD) (t : Fin cfg1.N) : FVec Ideal S256x4096 .f32 := iblk1 V c 5 t
abbrev biasBlk (c : Dev nD) (t : Fin cfg1.N) : FVec Ideal S1x256 .f32 := iblk1 V c 6 t

/-- The batch's block at point t holds rows 256 t … 256 t + 255 of the batch. -/
theorem xblk_apply (c : Dev nD) (t : Fin cfg1.N) (p : Fin 256) (k : Fin 4096) (n : Fin 32768) (hn : n.val = t.val * 256 + p.val) :
    xblk V c t (ix2 p k) = xarr V c (ix2 n k) := by
  obtain ⟨e0, e1, -⟩ := idx_facts t
  have h : ((cfg1.win 0).blk t).view.emb (ix2 p k) = ix2 n k := by
    funext a; apply Fin.ext
    match a with
    | ⟨0, _⟩ => show win1_0.index t (0 : Fin 2) * 256 + 1 * p.val = n.val; omega
    | ⟨1, _⟩ => show win1_0.index t (1 : Fin 2) * 4096 + 1 * k.val = k.val; omega
  show V c main_arg0 (((cfg1.win 0).blk t).view.emb (ix2 p k)) = V c main_arg0 (ix2 n k)
  rw [h]

/-- Each of the six other blocks is its whole array: the block is the array read through zero offsets. -/
theorem meanBlk_eq (c : Dev nD) (t : Fin cfg1.N) : meanBlk V c t = meanArr V c := by
  obtain ⟨-, -, e0, e1, -⟩ := idx_facts t
  funext y
  have h : ((cfg1.win 1).blk t).view.emb y = y := by
    funext a; apply Fin.ext
    match a with
    | ⟨0, _⟩ => show win1_1.index t (0 : Fin 2) * 1 + 1 * (y 0).val = (y 0).val; omega
    | ⟨1, _⟩ => show win1_1.index t (1 : Fin 2) * 4096 + 1 * (y 1).val = (y 1).val; omega
  show V c main_v2 (((cfg1.win 1).blk t).view.emb y) = V c main_v2 y
  rw [h]
theorem varBlk_eq (c : Dev nD) (t : Fin cfg1.N) : varBlk V c t = varArr V c := by
  obtain ⟨-, -, -, -, e0, e1, -⟩ := idx_facts t
  funext y
  have h : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 4096 + 1 * (y 1).val = (y 1).val; omega
  show V c main_v6 (((cfg1.win 2).blk t).view.emb y) = V c main_v6 y
  rw [h]
theorem gammaBlk_eq (c : Dev nD) (t : Fin cfg1.N) : gammaBlk V c t = gammaArr V c := by
  obtain ⟨-, -, -, -, -, -, e0, e1, -⟩ := idx_facts t
  funext y
  have h : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 4096 + 1 * (y 1).val = (y 1).val; omega
  show V c main_v7 (((cfg1.win 3).blk t).view.emb y) = V c main_v7 y
  rw [h]
theorem betaBlk_eq (c : Dev nD) (t : Fin cfg1.N) : betaBlk V c t = betaArr V c := by
  obtain ⟨-, -, -, -, -, -, -, -, e0, e1, -⟩ := idx_facts t
  funext y
  have h : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 4096 + 1 * (y 1).val = (y 1).val; omega
  show V c main_v8 (((cfg1.win 4).blk t).view.emb y) = V c main_v8 y
  rw [h]
theorem wBlk_eq (c : Dev nD) (t : Fin cfg1.N) : wBlk V c t = wArr V c := by
  obtain ⟨-, -, -, -, -, -, -, -, -, -, e0, e1, -⟩ := idx_facts t
  funext y
  have h : ((cfg1.win 5).blk t).view.emb y = y := by
    funext a; apply Fin.ext
    match a with
    | ⟨0, _⟩ => show win1_5.index t (0 : Fin 2) * 256 + 1 * (y 0).val = (y 0).val; omega
    | ⟨1, _⟩ => show win1_5.index t (1 : Fin 2) * 4096 + 1 * (y 1).val = (y 1).val; omega
  show V c main_arg3 (((cfg1.win 5).blk t).view.emb y) = V c main_arg3 y
  rw [h]
theorem biasBlk_eq (c : Dev nD) (t : Fin cfg1.N) : biasBlk V c t = biasArr V c := by
  obtain ⟨-, -, -, -, -, -, -, -, -, -, -, -, e0, e1, -⟩ := idx_facts t
  funext y
  have h : ((cfg1.win 6).blk t).view.emb y = y := by
    funext a; apply Fin.ext
    match a with
    | ⟨0, _⟩ => show win1_6.index t (0 : Fin 2) * 1 + 1 * (y 0).val = (y 0).val; omega
    | ⟨1, _⟩ => show win1_6.index t (1 : Fin 2) * 256 + 1 * (y 1).val = (y 1).val; omega
  show V c main_v9 (((cfg1.win 6).blk t).view.emb y) = V c main_v9 y
  rw [h]

/-- The result array as that function of the arrays the region found. -/
abbrev G (c : Dev nD) : FVec Ideal S32768x256 .f32 :=
  Gf (xarr V c) (meanArr V c) (varArr V c) (gammaArr V c) (betaArr V c) (wArr V c) (biasArr V c)

/-- What grid point t writes back is block t of that function. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S256x4096) hz, View.ld_unit_zero (S := S1x4096) hz, View.ld_unit_zero (S := S1x256) hz]
  obtain ⟨-, -, -, -, -, -, -, -, -, -, -, -, -, -, e0, e1⟩ := idx_facts t
  funext j
  show k1_pay1 (F := Ideal) (xblk V c t) (meanBlk V c t) (varBlk V c t) (gammaBlk V c t) (betaBlk V c t) (wBlk V c t) (biasBlk V c t)
      ((win1 7).xinj (grid1.coords t) j) = G V c (((cfg1.win 7).blk t).view.emb j)
  refine point_eq (xarr V c) (meanArr V c) (varArr V c) (gammaArr V c) (betaArr V c) (wArr V c) (biasArr V c)
    (xblk V c t) (meanBlk V c t) (varBlk V c t) (gammaBlk V c t) (betaBlk V c t) (wBlk V c t) (biasBlk V c t) t.val
    (fun p k n hn => xblk_apply V c t p k n hn) (meanBlk_eq V c t) (varBlk_eq V c t) (gammaBlk_eq V c t) (betaBlk_eq V c t)
    (wBlk_eq V c t) (biasBlk_eq V c t) ((win1 7).xinj (grid1.coords t) j) (((cfg1.win 7).blk t).view.emb j) ?_ ?_
  · show win1_7.index t (0 : Fin 2) * 256 + 1 * (j 0).val = t.val * 256 + (j 0).val
    omega
  · show win1_7.index t (1 : Fin 2) * 256 + 1 * (j 1).val = (j 1).val
    omega

/-- An index of the result array is in point t's block iff each coordinate is in the block's range on its axis. -/
theorem mem_blk (t : Fin cfg1.N) (i : S32768x256.Idx) :
    i ∈ ((cfg1.win 7).blk t).view.set ↔ ∀ a : Fin 2, win1_7.index t a * S256x256.size a ≤ (i a).val ∧ (i a).val < win1_7.index t a * S256x256.size a + S256x256.size a := by
  show i ∈ ((View.whole main_v10).slice (win1_7.rect t)).set ↔ _
  rw [View.set_slice_whole, Rect.mem_set_unit]
  exact Iff.rfl

/-- Row n of the result array lies in the block of grid point n / 256. -/
theorem cover (i : S32768x256.Idx) :
    ∃ t : Fin cfg1.N, (cfg1.win 7).flush t = true ∧ i ∈ ((cfg1.win 7).blk t).view.set := by
  have hi0 : (i 0).val < 32768 := idx2_lt0 i
  have hi1 : (i 1).val < 256 := idx2_lt1 i
  have hN : cfg1.N = 128 := N_1
  have ht : (i 0).val / 256 < cfg1.N := by rw [hN]; omega
  obtain ⟨-, -, -, -, -, -, -, -, -, -, -, -, -, -, e0, e1⟩ := idx_facts ⟨(i 0).val / 256, ht⟩
  refine ⟨⟨(i 0).val / 256, ht⟩, flush1_7 _, ?_⟩
  rw [mem_blk]
  intro a
  match a with
  | ⟨0, _⟩ =>
    show win1_7.index ⟨(i 0).val / 256, ht⟩ (0 : Fin 2) * 256 ≤ (i 0).val ∧ (i 0).val < win1_7.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win1_7.index ⟨(i 0).val / 256, ht⟩ (1 : Fin 2) * 256 ≤ (i 1).val ∧ (i 1).val < win1_7.index ⟨(i 0).val / 256, ht⟩ (1 : Fin 2) * 256 + 256
    rw [e1]
    omega

/-- After the 128 grid points the result array holds that function of the arrays the region found. -/
theorem final (c : Dev nD) : projOut V c = G V c :=
  (dat1 V c).arrAt_eq_of_cover 7 (G V c) (fun t _ => flushed_eq V c t) cover

/-- Entry (n, o) of the region's result array after its 128 grid points. -/
theorem out_arr (c : Dev nD) (n : Fin 32768) (o : Fin 256) :
    projOut V c (ix2 n o)
      = (∑ k : Fin 4096,
          max (((xarr V c (ix2 n k) - meanArr V c (ix2 (0 : Fin 1) k)) * Ideal.rsqrt (varArr V c (ix2 (0 : Fin 1) k) + Cert.Spec.cEps))
               * gammaArr V c (ix2 (0 : Fin 1) k) + betaArr V c (ix2 (0 : Fin 1) k)) Cert.Spec.c0
          * wArr V c (ix2 o k))
        + biasArr V c (ix2 (0 : Fin 1) o) := by
  rw [final V c]
  rfl

end Cert.KernelIdeal.KProj

end
-- ==== Proof.KValue.lean ====
/-
  The kernel program's result at the ideal instance, as the specification's function of the argument arrays.
-/
import proofs.«145961_j5119601016941_1_alg».proof.Proof.KRun
import proofs.«145961_j5119601016941_1_alg».proof.Proof.KArrays
import proofs.«145961_j5119601016941_1_alg».proof.Proof.KStats
import proofs.«145961_j5119601016941_1_alg».proof.Proof.KProj
import proofs.«145961_j5119601016941_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Cert.KernelIdeal.KArrays
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The five argument arrays as launched, at their literal types. -/
abbrev xIn (c : Dev nD) : FVec Ideal S32768x4096 .f32 := m ((c.tc : Thread nD τ).loc main_arg0)
abbrev gIn (c : Dev nD) : FVec Ideal S4096 .f32 := m ((c.tc : Thread nD τ).loc main_arg1)
abbrev beIn (c : Dev nD) : FVec Ideal S4096 .f32 := m ((c.tc : Thread nD τ).loc main_arg2)
abbrev wIn (c : Dev nD) : FVec Ideal S256x4096 .f32 := m ((c.tc : Thread nD τ).loc main_arg3)
abbrev biIn (c : Dev nD) : FVec Ideal S256 .f32 := m ((c.tc : Thread nD τ).loc main_arg4)

/-- The second region finds the batch as launched. -/
theorem V2_x (c : Dev nD) : xarr (V2 m ρ) c = xIn m c :=
  (((W3_arr m ρ c 0).trans (((dat1 (V2 m ρ) c).arrAt_in 0 rfl _).trans (A_eq1 (V2 m ρ) c 0))).symm).trans (W3_main_arg0 m ρ c)

/-- The second region finds the weights as launched. -/
theorem V2_w (c : Dev nD) : wArr (V2 m ρ) c = wIn m c :=
  (((W3_arr m ρ c 5).trans (((dat1 (V2 m ρ) c).arrAt_in 5 rfl _).trans (A_eq1 (V2 m ρ) c 5))).symm).trans (W3_main_arg3 m ρ c)

/-- The divisor both quotients of the host stretch share: the word of 32768.0 broadcast to a row. -/
abbrev nRow : FVec Ideal S1x4096 .f32 := broadcastInDim S1x4096 ![] bcast_S_S1x4096 (constant S_ .f32 0x47000000#32)

/-- The second region finds, as its mean row, the first region's column sums divided by the batch size. -/
theorem V2_mean (c : Dev nD) : meanArr (V2 m ρ) c = Host.divf (sumOut (V0 m ρ) c) nRow := by
  show StableHlo.after hostOps1 (W1 m ρ c) (Proc.devRef .tc main_v2) = _
  after_results
  exact congrArg (fun a => Host.divf a nRow) (W1_arr m ρ c 1)

/-- and, as its variance row, the sums of squares divided by the batch size, minus the squared mean. -/
theorem V2_var (c : Dev nD) : varArr (V2 m ρ) c
    = subf (Host.divf (sumsqOut (V0 m ρ) c) nRow) (mulf (Host.divf (sumOut (V0 m ρ) c) nRow) (Host.divf (sumOut (V0 m ρ) c) nRow)) := by
  show StableHlo.after hostOps1 (W1 m ρ c) (Proc.devRef .tc main_v6) = _
  after_results
  rw [show W1 m ρ c (Proc.devRef .tc main_v0_1) = sumsqOut (V0 m ρ) c from W1_arr m ρ c 2,
    show W1 m ρ c (Proc.devRef .tc main_v0_0) = sumOut (V0 m ρ) c from W1_arr m ρ c 1]

/-- The scale, the shift and the bias reach the second region reshaped to one row. -/
theorem V2_gamma (c : Dev nD) : gammaArr (V2 m ρ) c = shapeCast S1x4096 (gIn m c) shapeCasts_S4096_S1x4096 := by
  show StableHlo.after hostOps1 (W1 m ρ c) (Proc.devRef .tc main_v7) = _
  after_results
  rw [W1_of_ne m ρ c main_arg1 (by decide)]
  rfl
theorem V2_beta (c : Dev nD) : betaArr (V2 m ρ) c = shapeCast S1x4096 (beIn m c) shapeCasts_S4096_S1x4096 := by
  show StableHlo.after hostOps1 (W1 m ρ c) (Proc.devRef .tc main_v8) = _
  after_results
  rw [W1_of_ne m ρ c main_arg2 (by decide)]
  rfl
theorem V2_bias (c : Dev nD) : biasArr (V2 m ρ) c = shapeCast S1x256 (biIn m c) shapeCasts_S256_S1x256 := by
  show StableHlo.after hostOps1 (W1 m ρ c) (Proc.devRef .tc main_v9) = _
  after_results
  rw [W1_of_ne m ρ c main_arg4 (by decide)]
  rfl

/-- A vector reshaped to one row, read at (0, k), is the vector at k. -/
theorem row_of_vec {N : Nat} (v : (⟨1, ![N]⟩ : Shape).Idx → EReal) (h : (⟨1, ![N]⟩ : Shape).ShapeCasts ⟨2, ![1, N]⟩) (k : Fin N) :
    shapeCast (⟨2, ![1, N]⟩ : Shape) v h (ix2 (0 : Fin 1) k) = v (ix1 k) :=
  (shapeCast_addUnit_apply ![N] v h (ix2 (0 : Fin 1) k)).trans
    (congrArg v (funext fun a => by match a with | ⟨0, _⟩ => rfl))

/-- The batch as a curried function of row and feature, and likewise the other arguments. -/
abbrev X (c : Dev nD) : Fin 32768 → Fin 4096 → EReal := fun n d => xIn m c (ix2 n d)
abbrev Γ (c : Dev nD) : Fin 4096 → EReal := fun d => gIn m c (ix1 d)
abbrev Β (c : Dev nD) : Fin 4096 → EReal := fun d => beIn m c (ix1 d)
abbrev Ω (c : Dev nD) : Fin 256 → Fin 4096 → EReal := fun o d => wIn m c (ix2 o d)
abbrev Bi (c : Dev nD) : Fin 256 → EReal := fun o => biIn m c (ix1 o)

theorem mean_at (c : Dev nD) (k : Fin 4096) : meanArr (V2 m ρ) c (ix2 (0 : Fin 1) k) = Cert.Spec.mean (X m c) k := by
  rw [V2_mean]
  show Ideal.div (sumOut (V0 m ρ) c (ix2 (0 : Fin 1) k)) Cert.Spec.cN = _
  rw [KStats.sum_arr]
  rfl

theorem var_at (c : Dev nD) (k : Fin 4096) : varArr (V2 m ρ) c (ix2 (0 : Fin 1) k) = Cert.Spec.varMom (X m c) k := by
  rw [V2_var]
  show Ideal.div (sumsqOut (V0 m ρ) c (ix2 (0 : Fin 1) k)) Cert.Spec.cN
      - Ideal.div (sumOut (V0 m ρ) c (ix2 (0 : Fin 1) k)) Cert.Spec.cN * Ideal.div (sumOut (V0 m ρ) c (ix2 (0 : Fin 1) k)) Cert.Spec.cN = _
  rw [KStats.sumsq_arr, KStats.sum_arr]
  rfl

theorem gamma_at (c : Dev nD) (k : Fin 4096) : gammaArr (V2 m ρ) c (ix2 (0 : Fin 1) k) = Γ m c k := by
  rw [V2_gamma]; exact row_of_vec (gIn m c) shapeCasts_S4096_S1x4096 k
theorem beta_at (c : Dev nD) (k : Fin 4096) : betaArr (V2 m ρ) c (ix2 (0 : Fin 1) k) = Β m c k := by
  rw [V2_beta]; exact row_of_vec (beIn m c) shapeCasts_S4096_S1x4096 k
theorem bias_at (c : Dev nD) (o : Fin 256) : biasArr (V2 m ρ) c (ix2 (0 : Fin 1) o) = Bi m c o := by
  rw [V2_bias]; exact row_of_vec (biIn m c) shapeCasts_S256_S1x256 o

/-- The result array, entry by entry: the specification's projection with the variance as second moment minus squared mean. -/
theorem out_at (c : Dev nD) (n : Fin 32768) (o : Fin 256) :
    (W3 m ρ c (Proc.devRef .tc main_v10) : FVec Ideal S32768x256 .f32) (ix2 n o)
      = Cert.Spec.out (X m c) (Cert.Spec.mean (X m c)) (Cert.Spec.varMom (X m c)) (Γ m c) (Β m c) (Ω m c) (Bi m c) n o := by
  rw [show W3 m ρ c (Proc.devRef .tc main_v10) = projOut (V2 m ρ) c from W3_arr m ρ c 7, KProj.out_arr]
  unfold Cert.Spec.out Cert.Spec.act
  refine congrArg₂ (· + ·) (Finset.sum_congr rfl fun k _ => ?_) (bias_at m ρ c o)
  rw [mean_at, var_at, gamma_at, beta_at, V2_x, V2_w]

/-- The result array as one function of the arguments. -/
def result (c : Dev nD) : Buf (Elt Ideal) ((c.tc : Thread nD τ).loc main_v10) :=
  fun i => Cert.Spec.out (X m c) (Cert.Spec.mean (X m c)) (Cert.Spec.varMom (X m c)) (Γ m c) (Β m c) (Ω m c) (Bi m c)
    ⟨(i 0).val, (i 0).isLt⟩ ⟨(i 1).val, (i 1).isLt⟩

/-- The kernel program's run at the ideal instance, its result array named. -/
theorem run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (funext fun i => by
      obtain ⟨a, b, rfl⟩ : ∃ (a : Fin 32768) (b : Fin 256), i = ix2 a b := ⟨i 0, i 1, eq_ix2 i⟩
      exact out_at m ρ c a b), (h c).2⟩)
    (Cert.KernelIdeal.KRun.run_result (F := Ideal) m ρ)

end Cert.KernelIdeal.KValue

end
-- ==== Proof.RefValue.lean ====
/-
  The reference program read at the ideal instance: its result array, index by index, is the specification's projected
  entry with the variance taken as the mean squared deviation.
-/
import proofs.«145961_j5119601016941_1_alg».proof.Proof.Gen.ReferenceIdeal.Run
import proofs.«145961_j5119601016941_1_alg».proof.Proof.Gen.ReferenceIdeal.Read
import proofs.«145961_j5119601016941_1_alg».proof.Proof.Spec

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open scoped BigOperators

open Cert.ReferenceIdeal.Read in
/-- The reference's composed index maps, spelt by coordinates: the left operand of the contraction at output (n, o) and
    feature k is the batch entry (n, k); a one-row broadcast of a per-feature vector read at (n, k) is that vector at k; a
    column sum at feature k runs over the batch entries (k', k); the transposed weights at (k, o) are the weights at (o, k);
    the broadcast bias at (n, o) is the bias at o. -/
theorem lidx_eq (n : Fin 32768) (o : Fin 256) (k : Fin 4096) : lidx_main_v27 (ix2 n o) k = ix2 n k :=
  funext fun a => Fin.ext (by match a with | ⟨0, _⟩ => rfl | ⟨1, _⟩ => rfl)
open Cert.ReferenceIdeal.Read in
theorem ridx_eq (n : Fin 32768) (o : Fin 256) (k : Fin 4096) : idx_main_v26 (ridx_main_v27 (ix2 n o) k) = ix2 o k :=
  funext fun a => Fin.ext (by match a with | ⟨0, _⟩ => rfl | ⟨1, _⟩ => rfl)
open Cert.ReferenceIdeal.Read in
theorem col_mean_eq (n k' : Fin 32768) (k : Fin 4096) : idx_main_v0 (idx_main_v10 (idx_main_v11 (ix2 n k))) k' = ix2 k' k :=
  funext fun a => Fin.ext (by match a with | ⟨0, _⟩ => rfl | ⟨1, _⟩ => rfl)
open Cert.ReferenceIdeal.Read in
theorem col_var_eq (n k' : Fin 32768) (k : Fin 4096) : idx_main_v7 (idx_main_v16 (idx_main_v17 (ix2 n k))) k' = ix2 k' k :=
  funext fun a => Fin.ext (by match a with | ⟨0, _⟩ => rfl | ⟨1, _⟩ => rfl)
open Cert.ReferenceIdeal.Read in
theorem col_dev_eq (k' k'' : Fin 32768) (k : Fin 4096) : idx_main_v0 (idx_main_v3 (idx_main_v4 (ix2 k' k))) k'' = ix2 k'' k :=
  funext fun a => Fin.ext (by match a with | ⟨0, _⟩ => rfl | ⟨1, _⟩ => rfl)
open Cert.ReferenceIdeal.Read in
theorem gamma_idx_eq (n : Fin 32768) (k : Fin 4096) : idx_main_v19 (idx_main_v20 (ix2 n k)) = ix1 k :=
  funext fun a => Fin.ext (by match a with | ⟨0, _⟩ => rfl)
open Cert.ReferenceIdeal.Read in
theorem beta_idx_eq (n : Fin 32768) (k : Fin 4096) : idx_main_v22 (idx_main_v23 (ix2 n k)) = ix1 k :=
  funext fun a => Fin.ext (by match a with | ⟨0, _⟩ => rfl)
open Cert.ReferenceIdeal.Read in
theorem bias_idx_eq (n : Fin 32768) (o : Fin 256) : idx_main_v28 (idx_main_v29 (ix2 n o)) = ix1 o :=
  funext fun a => Fin.ext (by match a with | ⟨0, _⟩ => rfl)

/-- The reference's last stage at entry (n, o), as the specification's function of the arguments read by coordinates. -/
theorem ref_apply (x : S32768x4096.Idx → EReal) (g be : S4096.Idx → EReal) (w : S256x4096.Idx → EReal) (b : S256.Idx → EReal)
    (n : Fin 32768) (o : Fin 256) :
    Cert.ReferenceIdeal.Read.val_main_v30 (F := Ideal) x g be w b (ix2 n o)
      = Cert.Spec.out (fun n d => x (ix2 n d)) (Cert.Spec.mean (fun n d => x (ix2 n d))) (Cert.Spec.varDev (fun n d => x (ix2 n d)))
          (fun d => g (ix1 d)) (fun d => be (ix1 d)) (fun o d => w (ix2 o d)) (fun o => b (ix1 o)) n o := by
  open Cert.ReferenceIdeal.Read in
  simp only [val_main_v30_apply, val_main_v27_apply, val_main_v29_apply, val_main_v28_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply, val_main_cst_2_apply,
    val_main_cst_3_apply, val_main_call0_v0_apply, val_main_call0_cst_apply]
  simp only [lidx_eq, ridx_eq, col_mean_eq, col_var_eq, col_dev_eq, gamma_idx_eq, beta_idx_eq, bias_idx_eq,
    Ideal.addf_def, Ideal.subf_def, Ideal.mulf_def, Ideal.maximumf_def, Ideal.hostDivf_def, Ideal.hostUnary_rsqrt_def,
    Ideal.ofBits_def, Ideal.ofBits_zero_f32, zero_add,
    Cert.Spec.out, Cert.Spec.act, Cert.Spec.mean, Cert.Spec.varDev, Cert.Spec.c0, Cert.Spec.cN, Cert.Spec.cEps]

end Cert.ReferenceIdeal.RefValue

end
-- ==== Proof.lean ====
/-
  Batch normalisation in training mode, rectification and a linear projection: the kernel against its reference, over the
  extended reals.

  The kernel program makes two passes over the batch x[32768, 4096].  The first accumulates, over 32 row blocks, the column
  sums ∑ₙ x[n,d] and ∑ₙ x[n,d]²; the host then forms mean = ∑x / 32768 and var = ∑x² / 32768 − mean².  The second pass
  computes, per block of 256 rows, max(((x − mean)·rsqrt(var + ε))·γ + β, 0) and contracts it with the weights over the
  feature axis, adding the bias.  The reference computes the same projection with var = ∑ₙ (x[n,d] − mean)² / 32768.

  Both results are the specification's `out` (Proof/Spec.lean) of the same arguments, with the two spellings of the variance;
  these agree because every batch entry is a real number under the precondition (Proof/Finite.lean), where expanding the
  square and ∑ₙ x[n,d] = 32768·mean give ∑(x − mean)² = ∑x² − 32768·mean² (Proof/Spec.lean `varMom_eq_varDev`).  Everything
  after the variance is the same expression on both sides, so nothing else of the precondition is used.

  The kernel's result array is read off its run (Proof/KRun.lean) region by region: the column sums by induction over the
  grid points (Proof/KStats.lean), the host stretch by reading its operations back (Proof/KValue.lean), the projection block
  by block with the blocks covering the array (Proof/KProj.lean).  The reference's result is read one operation at a time
  (Proof/RefValue.lean).  The idealisation rewrote nothing, so `preserves` is trivial; the three frames are the runs with
  the result forgotten.
-/
import proofs.«145961_j5119601016941_1_alg».proof.Defs
import proofs.«145961_j5119601016941_1_alg».proof.Proof.Gen.Kernel
import proofs.«145961_j5119601016941_1_alg».proof.Proof.Gen.Kernel.Frame
import proofs.«145961_j5119601016941_1_alg».proof.Proof.Gen.KernelIdeal
import proofs.«145961_j5119601016941_1_alg».proof.Proof.Gen.KernelIdeal.Frame
import proofs.«145961_j5119601016941_1_alg».proof.Proof.Gen.ReferenceIdeal
import proofs.«145961_j5119601016941_1_alg».proof.Proof.Gen.ReferenceIdeal.Run
import proofs.«145961_j5119601016941_1_alg».proof.Proof.Gen.ReferenceIdeal.Read
import proofs.«145961_j5119601016941_1_alg».proof.Proof.Gen.Pre_finite_inputs
import proofs.«145961_j5119601016941_1_alg».proof.Proof.Spec
import proofs.«145961_j5119601016941_1_alg».proof.Proof.Finite
import proofs.«145961_j5119601016941_1_alg».proof.Proof.KValue
import proofs.«145961_j5119601016941_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at the specification's projection with the variance as second
    moment minus squared mean, the reference's at the same with the variance as mean squared deviation, of arguments
    that agree; on a batch of real numbers the two variances are one function. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2, Cert.ReferenceIdeal.Read.val_main_v30_eq]
  funext i
  obtain ⟨n, o, rfl⟩ : ∃ (n : Fin 32768) (o : Fin 256), i = ix2 n o := ⟨i 0, i 1, eq_ix2 i⟩
  rw [Cert.ReferenceIdeal.RefValue.ref_apply]
  show _ = Cert.Spec.out (Cert.KernelIdeal.KValue.X m c) (Cert.Spec.mean (Cert.KernelIdeal.KValue.X m c))
    (Cert.Spec.varMom (Cert.KernelIdeal.KValue.X m c)) _ _ _ _ n o
  rw [Cert.Spec.varMom_eq_varDev (Cert.KernelIdeal.KValue.X m c)
    (fun n d => Cert.KernelIdeal.Finite.x_real m hpre c (ix2 n d))]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
